-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S32x32 : Shape := ⟨2, ![32, 32]⟩
abbrev S32x8 : Shape := ⟨2, ![32, 8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x8 : S_.BroadcastsInDim S32x8 (![] : Fin 0 → Fin S32x8.rank)
  reducesTo_S32x8_S_d0_1 : S32x8.ReducesTo [0, 1] S_

variable [Facts]

def fn_part2 {F : FTy → Type} [FloatOps F] (main_arg8 : FVec F S32x8 .f32) (main_v33 : IVec S_ 1) : IVec S_ 1 :=
  let main_v34 : FVec F S32x8 .f32 := Host.absf main_arg8
  let main_cst_12 : FVec F S_ .f32 := constant S_ .f32 0x7F800000#32
  let main_v35 : FVec F S32x8 .f32 := broadcastInDim S32x8 ![] bcast_S_S32x8 main_cst_12
  let main_v36 : IVec S32x8 1 := cmpf .olt main_v34 main_v35
  let main_c_13 : IVec S_ 1 := constantI S_ 1 1#1
  let main_v37 : IVec S_ 1 := (fun x v => Host.reduce IntOp.andi x v reducesTo_S32x8_S_d0_1 h_S_) main_v36 main_c_13
  let main_v38 : IVec S_ 1 := andi main_v33 main_v37
  main_v38

def fn_part1 {F : FTy → Type} [FloatOps F] (main_arg5 : FVec F S32 .f32) (main_arg6 : FVec F S32x32 .f32) (main_arg7 : FVec F S32 .f32) (main_arg8 : FVec F S32x8 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x3200000 32) (main_arg2 : FVec F S64x128 .f32) (main_arg3 : FVec F S64 .f32) (main_arg4 : FVec F S32x64 .f32) (main_arg5 : FVec F S32 .f32) (main_arg6 : FVec F S32x32 .f32) (main_arg7 : FVec F S32 .f32) (main_arg8 : FVec F S32x8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_v13 main_v16
-- ==== Kernel.lean ====
abbrev S100000x128 : Shape := ⟨2, ![100000, 128]⟩
abbrev S2x3200000 : Shape := ⟨2, ![2, 3200000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S32x32 : Shape := ⟨2, ![32, 32]⟩
abbrev S32x8 : Shape := ⟨2, ![32, 8]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S128x64 : Shape := ⟨2, ![128, 64]⟩
abbrev S3300000x64 : Shape := ⟨2, ![3300000, 64]⟩
abbrev S1x64 : Shape := ⟨2, ![1, 64]⟩
abbrev S100000x32 : Shape := ⟨2, ![100000, 32]⟩
abbrev S5000x32 : Shape := ⟨2, ![5000, 32]⟩
abbrev S64x32 : Shape := ⟨2, ![64, 32]⟩
abbrev S3300000x32 : Shape := ⟨2, ![3300000, 32]⟩
abbrev S32x128 : Shape := ⟨2, ![32, 128]⟩
abbrev S1x32 : Shape := ⟨2, ![1, 32]⟩
abbrev S100000x8 : Shape := ⟨2, ![100000, 8]⟩

abbrev nBuf : Space → Nat
  | .hbm => 93
  | .vmem => 19
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S64x128, .f32⟩
  | .hbm, ⟨3, _⟩ => ⟨S64, .f32⟩
  | .hbm, ⟨4, _⟩ => ⟨S32x64, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x8, .f32⟩
  | .hbm, ⟨9, _⟩ => ⟨S1x3200000, .i32⟩
  | .hbm, ⟨10, _⟩ => ⟨S3200000, .i32⟩
  | .hbm, ⟨11, _⟩ => ⟨S100000, .i32⟩
  | .hbm, ⟨12, _⟩ => ⟨S3300000, .i32⟩
  | .hbm, ⟨13, _⟩ => ⟨S1x3200000, .i32⟩
  | .hbm, ⟨14, _⟩ => ⟨S3200000, .i32⟩
  | .hbm, ⟨15, _⟩ => ⟨S100000, .i32⟩
  | .hbm, ⟨16, _⟩ => ⟨S3300000, .i32⟩
  | .hbm, ⟨17, _⟩ => ⟨S_, .i32⟩
  | .hbm, ⟨18, _⟩ => ⟨S3300000, .i32⟩
  | .hbm, ⟨19, _⟩ => ⟨S_, .i32⟩
  | .hbm, ⟨20, _⟩ => ⟨S100000, .i32⟩
  | .hbm, ⟨21, _⟩ => ⟨S3300000x1, .i32⟩
  | .hbm, ⟨22, _⟩ => ⟨S100000, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x64, .f32⟩
  | .hbm, ⟨52, _⟩ => ⟨S3300000x1, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x64, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S1x64, .f32⟩
  | .hbm, ⟨69, _⟩ => ⟨S100000x32, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x32, .f32⟩
  | .hbm, ⟨80, _⟩ => ⟨S3300000x32, .f32⟩
  | .hbm, ⟨81, _⟩ => ⟨S3300000x32, .f32⟩
  | .hbm, ⟨82, _⟩ => ⟨S_, .f32⟩
  | .hbm, ⟨83, _⟩ => ⟨S100000x32, .f32⟩
  | .hbm, ⟨84, _⟩ => ⟨S3300000x1, .i32⟩
  | .hbm, ⟨85, _⟩ => ⟨S100000x32, .f32⟩
  | .hbm, ⟨86, _⟩ => ⟨S_, .i32⟩
  | .hbm, ⟨87, _⟩ => ⟨S_, .f32⟩
  | .hbm, ⟨88, _⟩ => ⟨S32x128, .f32⟩
  | .hbm, ⟨89, _⟩ => ⟨S1x32, .f32⟩
  | .hbm, ⟨90, _⟩ => ⟨S1x32, .f32⟩
  | .hbm, ⟨91, _⟩ => ⟨S100000x128, .f32⟩
  | .hbm, ⟨92, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S64x128, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S32x64, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S32x32, .f32⟩
  | .local _ .vmem, ⟨15, _⟩ => ⟨S1x32, .f32⟩
  | .local _ .vmem, ⟨16, _⟩ => ⟨S32x128, .f32⟩
  | .local _ .vmem, ⟨17, _⟩ => ⟨S5000x128, .f32⟩
  | .local _ .vmem, ⟨18, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_12 : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S32x64_S32x64_0_0 : ∀ a, (![0, 0] : Fin 2 → Nat) a + S32x64.size a ≤ S32x64.size a
  h_S32x64 : 0 < S32x64.numel
  transposes_S32x64_p1_0_S64x32 : S32x64.Transposes [1, 0] S64x32
  inb_S5000x32_S5000x32_0_0 : ∀ a, (![0, 0] : Fin 2 → Nat) a + S5000x32.size a ≤ S5000x32.size a
  h_S5000x32 : 0 < S5000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  pads_S32x8_S32x128_000_01200 : S32x8.Pads (![0, 0] : Fin 2 → Nat) ![0, 120] ![0, 0] S32x128
  h_S_ : 0 < S_.numel
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  slices_S100000x128_S100000x8_0_0 : S100000x128.Slices ![0, 0] S100000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x32_S5000x32_1_0_0_1_n_n_wf : DotDims.WF S5000x64 S64x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x32_S5000x32_1_0_0_1_n_n_wf : DotDims.WF S5000x32 S32x32 S5000x32 [1] [0] [0] [1] [] []
  dot_S5000x32_S32x128_S5000x128_1_0_0_1_n_n_wf : DotDims.WF S5000x32 S32x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x128.size a ≤ S32x128.size a
  hwx2_4 : ∀ i : grid2.Coords, EltTy.bits .f32 = 32 ∨ (Rect.block (s := S32x128) S32x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S32x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S32x32 : Shape := ⟨2, ![32, 32]⟩
abbrev S32x8 : Shape := ⟨2, ![32, 8]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S128x64 : Shape := ⟨2, ![128, 64]⟩
abbrev S100000x64 : Shape := ⟨2, ![100000, 64]⟩
abbrev S3300000x64 : Shape := ⟨2, ![3300000, 64]⟩
abbrev S1x64 : Shape := ⟨2, ![1, 64]⟩
abbrev S64x32 : Shape := ⟨2, ![64, 32]⟩
abbrev S100000x32 : Shape := ⟨2, ![100000, 32]⟩
abbrev S3300000x32 : Shape := ⟨2, ![3300000, 32]⟩
abbrev S1x32 : Shape := ⟨2, ![1, 32]⟩
abbrev S100000x8 : Shape := ⟨2, ![100000, 8]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x3200000, .i32⟩
  | 2 => ⟨S64x128, .f32⟩
  | 3 => ⟨S64, .f32⟩
  | 4 => ⟨S32x64, .f32⟩
  | 5 => ⟨S32, .f32⟩
  | 6 => ⟨S32x32, .f32⟩
  | 7 => ⟨S32, .f32⟩
  | 8 => ⟨S32x8, .f32⟩
  | 9 => ⟨S1x3200000, .i32⟩
  | 10 => ⟨S3200000, .i32⟩
  | 11 => ⟨S100000, .i32⟩
  | 12 => ⟨S3300000, .i32⟩
  | 13 => ⟨S1x3200000, .i32⟩
  | 14 => ⟨S3200000, .i32⟩
  | 15 => ⟨S100000, .i32⟩
  | 16 => ⟨S3300000, .i32⟩
  | 17 => ⟨S_, .f32⟩
  | 18 => ⟨S3300000, .f32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S_, .i32⟩
  | 41 => ⟨S3300000, .i32⟩
  | 42 => ⟨S3300000, .i1⟩
  | 43 => ⟨S_, .i32⟩
  | 44 => ⟨S3300000, .i32⟩
  | 45 => ⟨S3300000, .i32⟩
  | 46 => ⟨S3300000, .i32⟩
  | 47 => ⟨S3300000x1, .i32⟩
  | 48 => ⟨S3300000, .f32⟩
  | 49 => ⟨S3300000, .f32⟩
  | 50 => ⟨S128x64, .f32⟩
  | 51 => ⟨S100000x64, .f32⟩
  | 52 => ⟨S3300000x1, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x64, .f32⟩
  | 62 => ⟨S3300000x64, .f32⟩
  | 63 => ⟨S3300000x64, .f32⟩
  | 64 => ⟨S_, .f32⟩
  | 65 => ⟨S100000x64, .f32⟩
  | 66 => ⟨S3300000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S1x3200000, .i32⟩
  | 75 => ⟨S3200000, .i32⟩
  | 76 => ⟨S100000, .i32⟩
  | 77 => ⟨S3300000, .i32⟩
  | 78 => ⟨S1x3200000, .i32⟩
  | 79 => ⟨S3200000, .i32⟩
  | 80 => ⟨S100000, .i32⟩
  | 81 => ⟨S3300000, .i32⟩
  | 82 => ⟨S_, .f32⟩
  | 83 => ⟨S3300000, .f32⟩
  | 84 => ⟨S_, .f32⟩
  | 85 => ⟨S100000, .f32⟩
  | 86 => ⟨S3300000x1, .i32⟩
  | 87 => ⟨S100000, .f32⟩
  | 88 => ⟨S_, .f32⟩
  | 89 => ⟨S100000, .f32⟩
  | 90 => ⟨S100000, .i1⟩
  | 91 => ⟨S100000, .f32⟩
  | 92 => ⟨S_, .f32⟩
  | 93 => ⟨S_, .f32⟩
  | 94 => ⟨S100000, .f32⟩
  | 95 => ⟨S100000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000, .f32⟩
  | 114 => ⟨S3300000, .f32⟩
  | 115 => ⟨S64x32, .f32⟩
  | 116 => ⟨S100000x32, .f32⟩
  | 117 => ⟨S3300000x1, .f32⟩
  | 118 => ⟨S_, .i32⟩
  | 119 => ⟨S3300000, .i32⟩
  | 120 => ⟨S3300000, .i1⟩
  | 121 => ⟨S_, .i32⟩
  | 122 => ⟨S3300000, .i32⟩
  | 123 => ⟨S3300000, .i32⟩
  | 124 => ⟨S3300000, .i32⟩
  | 125 => ⟨S3300000x1, .i32⟩
  | 126 => ⟨S3300000x32, .f32⟩
  | 127 => ⟨S3300000x32, .f32⟩
  | _ => ⟨S100000x128, .f32⟩

abbrev hbmTy0_1 (i : Nat) : BufTy := match i % 128 with
  | 0 => ⟨S3300000x32, .f32⟩
  | 1 => ⟨S_, .f32⟩
  | 2 => ⟨S100000x32, .f32⟩
  | 3 => ⟨S3300000x1, .i32⟩
  | 4 => ⟨S100000x32, .f32⟩
  | 5 => ⟨S1x32, .f32⟩
  | 6 => ⟨S100000x32, .f32⟩
  | 7 => ⟨S100000x32, .f32⟩
  | 8 => ⟨S32x32, .f32⟩
  | 9 => ⟨S100000x32, .f32⟩
  | 10 => ⟨S1x32, .f32⟩
  | 11 => ⟨S100000x32, .f32⟩
  | 12 => ⟨S100000x32, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S_, .f32⟩
  | 19 => ⟨S100000x32, .f32⟩
  | 20 => ⟨S100000x32, .f32⟩
  | 21 => ⟨S100000x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_9 : Ref sig .tc := ⟨.hbm, 82, rfl⟩
abbrev main_v58 : Ref sig .tc := ⟨.hbm, 83, rfl⟩
abbrev main_cst_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_12 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_c_14 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_15 : Ref sig .tc := ⟨.hbm, 105, rfl⟩
abbrev main_v73 : Ref sig .tc := ⟨.hbm, 106, rfl⟩
abbrev main_v74 : Ref sig .tc := ⟨.hbm, 107, rfl⟩
abbrev main_c_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_c_17 : Ref sig .tc := ⟨.hbm, 118, rfl⟩
abbrev main_v84 : Ref sig .tc := ⟨.hbm, 119, rfl⟩
abbrev main_v85 : Ref sig .tc := ⟨.hbm, 120, rfl⟩
abbrev main_c_18 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_20 : Ref sig .tc := ⟨.hbm, 143, rfl⟩
abbrev main_v106 : Ref sig .tc := ⟨.hbm, 144, rfl⟩
abbrev main_v107 : Ref sig .tc := ⟨.hbm, 145, rfl⟩
abbrev main_cst_21 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  transposes_S64x128_S128x64_1_0 : S64x128.Transposes [1, 0] S128x64
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S32x32_S32x32_1_0 : S32x32.Transposes [1, 0] S32x32
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x32_S100000x32_1_0_0_1_n_n_wf : DotDims.WF S100000x64 S64x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x8_S100000x8_1_0_0_1_n_n_wf : DotDims.WF S100000x32 S32x8 S100000x8 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf

class Facts : Prop extends Facts₀ where

variable [Facts]
-- ==== Proof.LibScatterCount.lean ====
/-
  A host scatter whose body adds and whose updates are all the word one COUNTS: each element of the result is the
  operand's element plus the number of updates that land on it, as a word.  The order of the fold does not matter for
  this, since every step adds the same one.

  Read as a signed number, a count that stays below 2 ^ 31 is the natural number itself.  So, started from zeros, the
  integer scatter converted to a float is, at the exact values, the float scatter-add of ones started from zeros: both
  are the number of updates landing on the element.
-/
import Idealize.ShloMosaic.PureOps.ShapeOps
import Idealize.ShloMosaic.PureOps.Contract
import Idealize.ShloMosaic.PureOps.Vector
import Idealize.ShloMosaic.PureOps.Ideal

noncomputable section

namespace Idealize.ShloMosaic.ScatterCount

variable {s si u : Shape} {w n : Nat}

/-- Over the numbers below m, counting along the list of them all is the size of the filtered set. -/
theorem countP_finRange_eq_card {m : Nat} (P : Fin m → Prop) [DecidablePred P] :
    (List.finRange m).countP (fun k => decide (P k)) = (Finset.univ.filter P).card := by
  rw [List.countP_eq_length_filter, ← List.toFinset_card_of_nodup ((List.nodup_finRange m).filter _),
    List.toFinset_filter, List.toFinset_finRange]
  congr 1
  ext k
  simp

/-- A fold whose step adds the word one to the element at p when the update lands on p, and leaves that element alone
    when it does not: the element at p grows by the number of listed updates that land on p. -/
theorem foldl_count_apply {ι : Type} {m : Nat} (step : (ι → BitVec n) → Fin m → (ι → BitVec n)) (lands : Fin m → Prop)
    [DecidablePred lands] (p : ι)
    (hl : ∀ r k, lands k → step r k p = r p + 1#n) (hm : ∀ r k, ¬ lands k → step r k p = r p)
    (l : List (Fin m)) (r : ι → BitVec n) :
    l.foldl step r p = r p + BitVec.ofNat n (l.countP fun k => decide (lands k)) := by
  induction l generalizing r with
  | nil => simp
  | cons a t ih =>
    rw [List.foldl_cons, ih, List.countP_cons]
    by_cases ha : lands a
    · rw [hl r a ha]
      simp only [ha, decide_true, if_true, BitVec.ofNat_add]
      rw [BitVec.add_assoc, BitVec.add_comm (BitVec.ofNat n _) (BitVec.ofNat n 1)]
    · rw [hm r a ha]
      simp only [ha, decide_false, Bool.false_eq_true, if_false, Nat.add_zero]

/-- A scatter that adds, all of its updates the word one, read at an element: the operand's element plus the number
    of updates that land on it. -/
theorem scatter_addOne_apply (d : ScatterDims s si u) (x : s.Idx → BitVec n) (idx : IVec si w)
    (upd : u.Idx → BitVec n) (hupd : ∀ j, upd j = 1#n) (p : s.Idx) :
    Host.scatter d IntOp.addi x idx upd p
      = x p + BitVec.ofNat n (Finset.univ.filter fun j : u.Idx => d.resultIdx? j idx = some p).card := by
  unfold Host.scatter
  refine (foldl_count_apply _ (fun k => d.resultIdx? (u.rowMajor.symm k) idx = some p) p ?_ ?_ _ _).trans ?_
  · intro r k hk
    simp only [hk, if_pos rfl, hupd, IntOp.addi, if_true]
  · intro r k hk
    generalize d.resultIdx? (u.rowMajor.symm k) idx = q at hk
    cases q with
    | none => rfl
    | some i =>
      have hne : p ≠ i := fun e => hk (by rw [e])
      exact if_neg hne
  · rw [countP_finRange_eq_card]
    congr 2
    exact Finset.card_equiv u.rowMajor.symm (fun k => by simp)

/-- No more updates land on an element than there are updates. -/
theorem card_landing_le (d : ScatterDims s si u) (idx : IVec si w) (p : s.Idx) :
    (Finset.univ.filter fun j : u.Idx => d.resultIdx? j idx = some p).card ≤ u.numel := by
  refine (Finset.card_le_univ _).trans (le_of_eq ?_)
  rw [Fintype.card_congr u.rowMajor, Fintype.card_fin]

/-- A natural number of ones, added up in the extended reals, is that number. -/
theorem nsmul_one_coe (k : ℕ) : k • (1 : EReal) = ((k : ℝ) : EReal) := by
  induction k with
  | zero => simp
  | succ k ih => rw [succ_nsmul, ih, Nat.cast_succ, EReal.coe_add, EReal.coe_one]

/-- A word holding a natural number below 2 ^ 31 reads back, signed, as that number. -/
theorem toInt_ofNat_of_lt (k : ℕ) (hk : k < 2 ^ 31) : (BitVec.ofNat 32 k).toInt = (k : ℤ) := by
  have h1 : (BitVec.ofNat 32 k).toNat = k := by rw [BitVec.toNat_ofNat]; omega
  rw [BitVec.toInt_eq_toNat_of_lt (by rw [h1]; omega), h1]

/-- Counting in 32-bit words and converting is counting in exact floats: from zeros, with fewer than 2 ^ 31 updates,
    the converted integer scatter of ones is the float scatter-add of ones. -/
theorem sitofp_scatter_addOne (d : ScatterDims s si u) (idx : IVec si w)
    (x : IVec s 32) (hx : ∀ i, x i = 0#32) (upd : IVec u 32) (hupd : ∀ j, upd j = 1#32)
    (xf : FVec Ideal s .f32) (hxf : ∀ i, xf i = 0) (updf : FVec Ideal u .f32) (hupdf : ∀ j, updf j = 1)
    (hnum : u.numel < 2 ^ 31) :
    sitofp (F := Ideal) .f32 (Host.scatter d IntOp.addi x idx upd) = Host.scatterAdd d xf idx updf := by
  funext p
  show ((((Host.scatter d IntOp.addi x idx upd p).toInt : ℤ) : ℝ) : EReal)
    = xf p + ∑ j ∈ Finset.univ.filter (fun j => d.resultIdx? j idx = some p), updf j
  rw [scatter_addOne_apply d x idx upd hupd p, hx, hxf, BitVec.zero_add, zero_add,
    Finset.sum_congr rfl (fun j _ => hupdf j), Finset.sum_const, nsmul_one_coe,
    toInt_ofNat_of_lt _ (lt_of_le_of_lt (card_landing_le d idx p) hnum), Int.cast_natCast]

end Idealize.ShloMosaic.ScatterCount
-- ==== Proof.HostA.lean ====
/-
  The host operations before the first region, read back: the message sources and destinations, the degree and the
  symmetric normalisation.

  From the edge list e (2 by 3200000 words) the program forms src = e[0] followed by 0 .. 99999 and dst = e[1] followed
  by 0 .. 99999 (the self loops), the degree deg i = the number of messages whose destination is i, dinv = deg^(-1/2)
  where deg > 0 and 0 elsewhere, and norm j = dinv (src j) * dinv (dst j) with numpy's wrap of a negative index.

  The kernel program counts the degree in 32-bit words, adding the word one per message, and converts the count; the
  reference adds the float one per message.  There are 3300000 messages, fewer than 2 ^ 31, so the word count cannot
  wrap and both are the number of messages landing on i.  Every other operation of this stretch is the same operation
  in both programs, so each buffer here holds the reference's value of the same name.
-/
import proofs.«406410_j20169166422307_4_alg».proof.Proof.Gen.KernelIdeal.Frame
import proofs.«406410_j20169166422307_4_alg».proof.Proof.RefRead
import proofs.«406410_j20169166422307_4_alg».proof.Proof.LibScatterCount
import Idealize.ShloMosaic.Lib.StableHlo.Run
import Idealize.ShloMosaic.Lib.IdealHost
import Idealize.ShloMosaic.PureOps.Ideal.Laws

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- Reads a buffer back through a literal list of host operations: one pass over the result lemmas, then the same
    lemmas by rewriting for what sits inside a concatenate's operand list, and last the casts between a buffer's contents
    and a typed reference's (an outlined function's operations are spelled over typed references) are removed. -/
macro "read_results" : tactic =>
  `(tactic| (after_results_simp
             repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))
             try simp only [TRef.ofBuf, TRef.toBuf, cast_eq]))

/-- The degree counted in words and converted is the degree summed in exact floats, whatever the destinations. -/
theorem deg_eq (idx : IVec S3300000x1 32) :
    sitofp (F := Ideal) .f32 (Host.scatter scatter_S100000_S3300000x1_S3300000_n_0_0_1 IntOp.addi
        (broadcastInDim S100000 ![] bcast_S_S100000 (constantI S_ 32 0#32)) idx
        (broadcastInDim S3300000 ![] bcast_S_S3300000 (constantI S_ 32 1#32)))
      = Host.scatterAdd scatter_S100000_S3300000x1_S3300000_n_0_0_1
        (broadcastInDim S100000 ![] bcast_S_S100000 (constant (F := Ideal) S_ .f32 0x00000000#32)) idx
        (broadcastInDim S3300000 ![] bcast_S_S3300000 (constant (F := Ideal) S_ .f32 0x3F800000#32)) :=
  ScatterCount.sitofp_scatter_addOne _ idx _ (fun _ => rfl) _ (fun _ => rfl) _ (fun _ => Ideal.ofBits_zero_f32) _
    (fun _ => Ideal.ofBits_one_f32) (by decide)

variable (m : (ℓ : Loc nD τ sig) → Buf (Elt Ideal) ℓ) (ρ : Dev nD → PrngReg)

/-- The message sources. -/
theorem W3_src (c : Dev nD) :
    W3 m ρ c (Proc.devRef .tc main_v3) = Cert.ReferenceIdeal.Read.val_main_v3 (m ((c : Thread nD τ).loc main_arg1)) := by
  dsimp only [W3, W2, W1, hostOps0, hostOps0_1, hostOps0_2]
  read_results
  rfl

/-- The message destinations. -/
theorem W3_dst (c : Dev nD) :
    W3 m ρ c (Proc.devRef .tc main_v7) = Cert.ReferenceIdeal.Read.val_main_v7 (m ((c : Thread nD τ).loc main_arg1)) := by
  dsimp only [W3, W2, W1, hostOps0, hostOps0_1, hostOps0_2]
  read_results
  rfl

/-- The normalisation of each message. -/
theorem W3_norm (c : Dev nD) :
    W3 m ρ c (Proc.devRef .tc main_v31) = Cert.ReferenceIdeal.Read.val_main_v30 (m ((c : Thread nD τ).loc main_arg1)) := by
  dsimp only [W3, W2, W1, hostOps0, hostOps0_1, hostOps0_2]
  read_results
  rw [deg_eq]
  simp only [Cert.ReferenceIdeal.Read.val_main_v0, Cert.ReferenceIdeal.Read.val_main_v1, Cert.ReferenceIdeal.Read.val_main_v2, Cert.ReferenceIdeal.Read.val_main_v3, Cert.ReferenceIdeal.Read.val_main_v4, Cert.ReferenceIdeal.Read.val_main_v5, Cert.ReferenceIdeal.Read.val_main_v6, Cert.ReferenceIdeal.Read.val_main_v7, Cert.ReferenceIdeal.Read.val_main_cst, Cert.ReferenceIdeal.Read.val_main_v8, Cert.ReferenceIdeal.Read.val_main_cst_0, Cert.ReferenceIdeal.Read.val_main_v9, Cert.ReferenceIdeal.Read.val_main_v10, Cert.ReferenceIdeal.Read.val_main_v11, Cert.ReferenceIdeal.Read.val_main_cst_1, Cert.ReferenceIdeal.Read.val_main_v12, Cert.ReferenceIdeal.Read.val_main_v13, Cert.ReferenceIdeal.Read.val_main_v14, Cert.ReferenceIdeal.Read.val_main_cst_2, Cert.ReferenceIdeal.Read.val_main_call0_v0, Cert.ReferenceIdeal.Read.val_main_call0_v1, Cert.ReferenceIdeal.Read.val_main_v15, Cert.ReferenceIdeal.Read.val_main_c, Cert.ReferenceIdeal.Read.val_main_v16, Cert.ReferenceIdeal.Read.val_main_v17, Cert.ReferenceIdeal.Read.val_main_c_3, Cert.ReferenceIdeal.Read.val_main_v18, Cert.ReferenceIdeal.Read.val_main_v19, Cert.ReferenceIdeal.Read.val_main_v20, Cert.ReferenceIdeal.Read.val_main_v21, Cert.ReferenceIdeal.Read.val_main_v22, Cert.ReferenceIdeal.Read.val_main_c_4, Cert.ReferenceIdeal.Read.val_main_v23, Cert.ReferenceIdeal.Read.val_main_v24, Cert.ReferenceIdeal.Read.val_main_c_5, Cert.ReferenceIdeal.Read.val_main_v25, Cert.ReferenceIdeal.Read.val_main_v26, Cert.ReferenceIdeal.Read.val_main_v27, Cert.ReferenceIdeal.Read.val_main_v28, Cert.ReferenceIdeal.Read.val_main_v29, Cert.ReferenceIdeal.Read.val_main_v30]
  rfl

/-- The arguments the first region reads are as launched. -/
theorem W3_arg0 (c : Dev nD) : W3 m ρ c (Proc.devRef .tc main_arg0) = m ((c : Thread nD τ).loc main_arg0) := by
  dsimp only [W3, W2, W1, hostOps0, hostOps0_1, hostOps0_2]
  read_results
theorem W3_arg2 (c : Dev nD) : W3 m ρ c (Proc.devRef .tc main_arg2) = m ((c : Thread nD τ).loc main_arg2) := by
  dsimp only [W3, W2, W1, hostOps0, hostOps0_1, hostOps0_2]
  read_results

end Cert.KernelIdeal.Host
-- ==== Proof.LibPlainDot.lean ====
/-
  The plain matrix product, rows times contraction by contraction times columns, read at an entry.

  For the dimension numbers "contract the left operand's axis 1 with the right operand's axis 0, no batch axis", the
  product of an M-by-K and a K-by-N matrix has at entry (p, q) the sum over k of left (p, k) times right (k, q).  At the
  exact values this holds of the host's product and of a kernel's product accumulated into a zero splat alike, on all
  extended reals, because only 0 + x = x is used.
-/
import Idealize.ShloMosaic.Lib.ValueIdx
import Idealize.ShloMosaic.Lib.KernelVsHost
import Idealize.ShloMosaic.PureOps.Ideal.Laws

noncomputable section

namespace Idealize.ShloMosaic.PlainDot

open Idealize.ShloMosaic.ValueIdx

variable {M K N : Nat} {φ₁ φ₂ : FTy}

/-- The left operand's index at output entry j and contraction step k: row of j, column k. -/
theorem lhsIdx_plain (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

/-- The right operand's index at output entry j and contraction step k: row k, column of j. -/
theorem rhsIdx_plain (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- The host's plain product at an entry is the sum over the contraction of left (row, k) times right (k, column). -/
theorem dotGeneral_plain_apply (prec : Option ContractPrecision) (l : FVec Ideal ⟨2, ![M, K]⟩ φ₁)
    (r : FVec Ideal ⟨2, ![K, N]⟩ φ₂) (j : (⟨2, ![M, N]⟩ : Shape).Idx) :
    Host.dotGeneral (DotDims.plain M K N) prec l r j = ∑ k : Fin K, l (ix2 (j 0) k) * r (ix2 k (j 1)) := by
  simp only [Host.dotGeneral]
  rw [Ideal.dotGeneral_apply, ← Equiv.sum_comp (contrEquiv1 (DotDims.plain M K N) K rfl rfl).symm]
  refine Finset.sum_congr rfl fun k _ => ?_
  rw [lhsIdx_plain, rhsIdx_plain]
  rfl

/-- A kernel's plain product accumulated into a zero splat, at an entry: the same sum. -/
theorem matmul_zero_plain_apply (prec : Option ContractPrecision) (l : FVec Ideal ⟨2, ![M, K]⟩ φ₁)
    (r : FVec Ideal ⟨2, ![K, N]⟩ φ₂) (j : (⟨2, ![M, N]⟩ : Shape).Idx) :
    matmul (DotDims.plain M K N) prec l r (constant ⟨2, ![M, N]⟩ .f32 0x00000000#32) j
      = ∑ k : Fin K, l (ix2 (j 0) k) * r (ix2 k (j 1)) := by
  rw [matmul_zero_eq_dotGeneral, dotGeneral_plain_apply]

end Idealize.ShloMosaic.PlainDot
-- ==== Proof.Region0.lean ====
/-
  The first pipelined region: the dense product x · W1ᵀ, computed 5000 rows at a time.

  At grid point t the body loads rows [5000 t, 5000 t + 5000) of x and all of W1, transposes W1 and multiplies into a
  zero accumulator; the block it writes back is rows [5000 t, 5000 t + 5000) of the product.  Entry (r, q) of a block is
  the sum over k of x (5000 t + r, k) · W1 (q, k), which is entry (5000 t + r, q) of the host's product of x with the
  transposed W1.  The twenty blocks tile the 100000 rows, so after the region the array holds the host's product.
-/
import proofs.«406410_j20169166422307_4_alg».proof.Proof.Gen.KernelIdeal.Frame
import proofs.«406410_j20169166422307_4_alg».proof.Proof.RefRead
import proofs.«406410_j20169166422307_4_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.ValueIdx Idealize.ShloMosaic.TcCoe Idealize.SL.Sem
open Idealize.ShloMosaic.Pipeline (Dat)

/-- The body's product at an entry of the block: row of the loaded rows of x against row of W1. -/
theorem pay_apply (x0 : Vec Ideal S5000x128 .f32) (x1 : Vec Ideal S64x128 .f32) (j : S5000x64.Idx) :
    k0_pay1 x0 x1 j = ∑ k : Fin 128, x0 (ix2 (j 0) k) * x1 (ix2 (j 1) k) := by
  unfold k0_pay1
  dsimp only
  rw [show dot_S5000x128_S128x64_S5000x64_1_0_0_1_n_n = DotDims.plain 5000 128 64 from rfl]
  refine (PlainDot.matmul_zero_plain_apply none x0 _ j).trans ?_
  refine Finset.sum_congr rfl fun k _ => ?_
  congr 1
  exact transpose_apply [1, 0] x1 transposes_S64x128_p1_0_S128x64 (ix2 k (j 1)) (ix2 (j 1) k)
    (fun b => match b with | ⟨0, _⟩ => rfl | ⟨1, _⟩ => rfl)

/-- The host's product of x with the transposed W1 at an entry: the same sum over whole rows. -/
theorem ref_apply (X : (⟨Cert.ReferenceIdeal.S100000x128, .f32⟩ : BufTy).Contents (Elt Ideal))
    (Wm : (⟨Cert.ReferenceIdeal.S64x128, .f32⟩ : BufTy).Contents (Elt Ideal)) (i : Cert.ReferenceIdeal.S100000x64.Idx) :
    Cert.ReferenceIdeal.Read.val_main_v32 X Wm i = ∑ k : Fin 128, X (ix2 (i 0) k) * Wm (ix2 (i 1) k) := by
  rw [Cert.ReferenceIdeal.Read.val_main_v32_apply]
  refine Finset.sum_congr rfl fun k _ => ?_
  rw [Cert.ReferenceIdeal.Read.val_main_v31_apply]
  congr 1
  · exact congrArg X (funext fun a => by match a with | ⟨0, _⟩ => rfl | ⟨1, _⟩ => rfl)
  · exact congrArg Wm (funext fun a => by match a with | ⟨0, _⟩ => rfl | ⟨1, _⟩ => rfl)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move one block per point, the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the host's product of the arrays the region finds. -/
theorem flushed_eq (c : Dev nD) (t : Fin cfg0.N) :
    (dat0 V c).flushed 2 t = ((cfg0.win 2).blk t).view.read (Elt Ideal)
      (Cert.ReferenceIdeal.Read.val_main_v32 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S64x128) hz]
  obtain ⟨e0, e1, e2, e3, e4, e5⟩ := idx_facts t
  funext j
  show k0_pay1 (iblk0 V c 0 t) (iblk0 V c 1 t) j
    = Cert.ReferenceIdeal.Read.val_main_v32 (V c main_arg0) (V c main_arg2) (((cfg0.win 2).blk t).view.emb j)
  rw [ref_apply]
  refine (pay_apply (iblk0 V c 0 t) (iblk0 V c 1 t) j).trans ?_
  refine Finset.sum_congr rfl fun k _ => ?_
  congr 1
  · show V c main_arg0 (((cfg0.win 0).blk t).view.emb (ix2 (j 0) k))
      = V c main_arg0 (ix2 ((((cfg0.win 2).blk t).view.emb j) 0) k)
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg2 (((cfg0.win 1).blk t).view.emb (ix2 (j 1) k))
      = V c main_arg2 (ix2 ((((cfg0.win 2).blk t).view.emb j) 1) k)
    refine congrArg _ (funext fun a => Fin.ext ?_)
    match a with
    | ⟨0, _⟩ =>
      show win0_1.index t (0 : Fin 2) * 64 + 1 * (j 1).val = win0_2.index t (1 : Fin 2) * 64 + 1 * (j 1).val
      omega
    | ⟨1, _⟩ =>
      show win0_1.index t (1 : Fin 2) * 128 + 1 * k.val = k.val
      omega

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v32).slice (win0_2.rect t)).set ↔ _
  rw [View.set_slice_whole, Rect.mem_set_unit]
  exact Iff.rfl

/-- Every row lies in the block of the point numbered by the row's quotient by 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hlt : (i 0).val / 5000 < cfg0.N := by show (i 0).val / 5000 < grid0.N; rw [N_0]; omega
  obtain ⟨e0, e1, e2, e3, e4, e5⟩ := idx_facts ⟨(i 0).val / 5000, hlt⟩
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    simp only [] at e4
    omega
  | ⟨1, _⟩ =>
    show win0_2.index ⟨(i 0).val / 5000, hlt⟩ (1 : Fin 2) * 64 ≤ (i 1).val
      ∧ (i 1).val < win0_2.index ⟨(i 0).val / 5000, hlt⟩ (1 : Fin 2) * 64 + 64
    omega

/-- After the region the product's array holds the host's product of x with the transposed W1. -/
theorem final (c : Dev nD) :
    (dat0 V c).arrAt 2 cfg0.N = Cert.ReferenceIdeal.Read.val_main_v32 (V c main_arg0) (V c main_arg2) :=
  (dat0 V c).arrAt_eq_of_cover 2 _ (fun t _ => flushed_eq V c t) cover

end Cert.KernelIdeal.Region0
-- ==== Proof.HostB.lean ====
/-
  From the first region to the second.  After the first region the product's buffer holds x times the transposed W1;
  every other buffer is as the region found it.  The host operations that follow gather the product's rows at the
  message sources, scale each by its normalisation and add them up at the destinations: the aggregated first-layer
  features.  They are the reference's operations of the same names applied to the same values.  The bias is reshaped to
  one row for the second region.
-/
import proofs.«406410_j20169166422307_4_alg».proof.Proof.HostA
import proofs.«406410_j20169166422307_4_alg».proof.Proof.Region0
import Idealize.ShloMosaic.Lib.ValueLayout

set_option maxRecDepth 16384

noncomputable section

namespace Cert.KernelIdeal.Host

open Cert.KernelIdeal Cert.KernelIdeal.Gen
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- After the first region the product's buffer holds the host's product of x with the transposed W1. -/
theorem W4_prod (c : Dev nD) :
    W4 m ρ c (Proc.devRef .tc main_v32)
      = Cert.ReferenceIdeal.Read.val_main_v32 (m ((c : Thread nD τ).loc main_arg0)) (m ((c : Thread nD τ).loc main_arg2)) := by
  refine (W4_arr m ρ c 2).trans ((Region0.final (V3 m ρ) c).trans ?_)
  rw [show V3 m ρ c main_arg0 = m ((c : Thread nD τ).loc main_arg0) from W3_arg0 m ρ c,
    show V3 m ρ c main_arg2 = m ((c : Thread nD τ).loc main_arg2) from W3_arg2 m ρ c]

/-- The first region leaves the sources, the destinations and the normalisation alone. -/
theorem W4_src (c : Dev nD) :
    W4 m ρ c (Proc.devRef .tc main_v3) = Cert.ReferenceIdeal.Read.val_main_v3 (m ((c : Thread nD τ).loc main_arg1)) :=
  (W4_of_ne m ρ c main_v3 (by decide)).trans (W3_src m ρ c)
theorem W4_dst (c : Dev nD) :
    W4 m ρ c (Proc.devRef .tc main_v7) = Cert.ReferenceIdeal.Read.val_main_v7 (m ((c : Thread nD τ).loc main_arg1)) :=
  (W4_of_ne m ρ c main_v7 (by decide)).trans (W3_dst m ρ c)
theorem W4_norm (c : Dev nD) :
    W4 m ρ c (Proc.devRef .tc main_v31) = Cert.ReferenceIdeal.Read.val_main_v30 (m ((c : Thread nD τ).loc main_arg1)) :=
  (W4_of_ne m ρ c main_v31 (by decide)).trans (W3_norm m ρ c)

/-- The aggregated first-layer features. -/
theorem W5_agg (c : Dev nD) :
    W5 m ρ c (Proc.devRef .tc main_v45)
      = Cert.ReferenceIdeal.Read.val_main_v45 (m ((c : Thread nD τ).loc main_arg0)) (m ((c : Thread nD τ).loc main_arg1))
          (m ((c : Thread nD τ).loc main_arg2)) := by
  dsimp only [W5, hostOps1]
  read_results
  rw [W4_prod, W4_src, W4_dst, W4_norm]
  simp only [Cert.ReferenceIdeal.Read.val_main_v33, Cert.ReferenceIdeal.Read.val_main_c_6, Cert.ReferenceIdeal.Read.val_main_v34, Cert.ReferenceIdeal.Read.val_main_v35, Cert.ReferenceIdeal.Read.val_main_c_7, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_cst_8, Cert.ReferenceIdeal.Read.val_main_v43, Cert.ReferenceIdeal.Read.val_main_v44, Cert.ReferenceIdeal.Read.val_main_v45]
  rfl

end Cert.KernelIdeal.Host
-- ==== Proof.HostArgs.lean ====
/-
  The weight and bias arguments are written by no host operation and by no region: at every segment boundary their
  buffers hold the launch contents.
-/
import proofs.«406410_j20169166422307_4_alg».proof.Proof.HostA

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem W3_arg3 (c : Dev nD) : W3 m ρ c (Proc.devRef .tc main_arg3) = m ((c : Thread nD τ).loc main_arg3) := by
  dsimp only [W3, W2, W1, hostOps0, hostOps0_1, hostOps0_2]
  read_results
theorem W3_arg4 (c : Dev nD) : W3 m ρ c (Proc.devRef .tc main_arg4) = m ((c : Thread nD τ).loc main_arg4) := by
  dsimp only [W3, W2, W1, hostOps0, hostOps0_1, hostOps0_2]
  read_results
theorem W3_arg5 (c : Dev nD) : W3 m ρ c (Proc.devRef .tc main_arg5) = m ((c : Thread nD τ).loc main_arg5) := by
  dsimp only [W3, W2, W1, hostOps0, hostOps0_1, hostOps0_2]
  read_results
theorem W3_arg6 (c : Dev nD) : W3 m ρ c (Proc.devRef .tc main_arg6) = m ((c : Thread nD τ).loc main_arg6) := by
  dsimp only [W3, W2, W1, hostOps0, hostOps0_1, hostOps0_2]
  read_results
theorem W3_arg7 (c : Dev nD) : W3 m ρ c (Proc.devRef .tc main_arg7) = m ((c : Thread nD τ).loc main_arg7) := by
  dsimp only [W3, W2, W1, hostOps0, hostOps0_1, hostOps0_2]
  read_results
theorem W3_arg8 (c : Dev nD) : W3 m ρ c (Proc.devRef .tc main_arg8) = m ((c : Thread nD τ).loc main_arg8) := by
  dsimp only [W3, W2, W1, hostOps0, hostOps0_1, hostOps0_2]
  read_results
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W5_arg3 (c : Dev nD) : W5 m ρ c (Proc.devRef .tc main_arg3) = m ((c : Thread nD τ).loc main_arg3) := by
  dsimp only [W5, hostOps1]
  read_results
  exact W4_arg3 m ρ c
theorem W5_arg4 (c : Dev nD) : W5 m ρ c (Proc.devRef .tc main_arg4) = m ((c : Thread nD τ).loc main_arg4) := by
  dsimp only [W5, hostOps1]
  read_results
  exact W4_arg4 m ρ c
theorem W5_arg5 (c : Dev nD) : W5 m ρ c (Proc.devRef .tc main_arg5) = m ((c : Thread nD τ).loc main_arg5) := by
  dsimp only [W5, hostOps1]
  read_results
  exact W4_arg5 m ρ c
theorem W5_arg6 (c : Dev nD) : W5 m ρ c (Proc.devRef .tc main_arg6) = m ((c : Thread nD τ).loc main_arg6) := by
  dsimp only [W5, hostOps1]
  read_results
  exact W4_arg6 m ρ c
theorem W5_arg7 (c : Dev nD) : W5 m ρ c (Proc.devRef .tc main_arg7) = m ((c : Thread nD τ).loc main_arg7) := by
  dsimp only [W5, hostOps1]
  read_results
  exact W4_arg7 m ρ c
theorem W5_arg8 (c : Dev nD) : W5 m ρ c (Proc.devRef .tc main_arg8) = m ((c : Thread nD τ).loc main_arg8) := by
  dsimp only [W5, hostOps1]
  read_results
  exact W4_arg8 m ρ c
theorem W6_arg5 (c : Dev nD) : W6 m ρ c (Proc.devRef .tc main_arg5) = m ((c : Thread nD τ).loc main_arg5) :=
  (W6_of_ne m ρ c main_arg5 (by decide)).trans (W5_arg5 m ρ c)
theorem W6_arg6 (c : Dev nD) : W6 m ρ c (Proc.devRef .tc main_arg6) = m ((c : Thread nD τ).loc main_arg6) :=
  (W6_of_ne m ρ c main_arg6 (by decide)).trans (W5_arg6 m ρ c)
theorem W6_arg7 (c : Dev nD) : W6 m ρ c (Proc.devRef .tc main_arg7) = m ((c : Thread nD τ).loc main_arg7) :=
  (W6_of_ne m ρ c main_arg7 (by decide)).trans (W5_arg7 m ρ c)
theorem W6_arg8 (c : Dev nD) : W6 m ρ c (Proc.devRef .tc main_arg8) = m ((c : Thread nD τ).loc main_arg8) :=
  (W6_of_ne m ρ c main_arg8 (by decide)).trans (W5_arg8 m ρ c)
theorem W9_arg5 (c : Dev nD) : W9 m ρ c (Proc.devRef .tc main_arg5) = m ((c : Thread nD τ).loc main_arg5) := by
  dsimp only [W9, W8, W7, hostOps2, hostOps2_1, hostOps2_2]
  read_results
  exact W6_arg5 m ρ c
theorem W9_arg6 (c : Dev nD) : W9 m ρ c (Proc.devRef .tc main_arg6) = m ((c : Thread nD τ).loc main_arg6) := by
  dsimp only [W9, W8, W7, hostOps2, hostOps2_1, hostOps2_2]
  read_results
  exact W6_arg6 m ρ c
theorem W9_arg7 (c : Dev nD) : W9 m ρ c (Proc.devRef .tc main_arg7) = m ((c : Thread nD τ).loc main_arg7) := by
  dsimp only [W9, W8, W7, hostOps2, hostOps2_1, hostOps2_2]
  read_results
  exact W6_arg7 m ρ c
theorem W9_arg8 (c : Dev nD) : W9 m ρ c (Proc.devRef .tc main_arg8) = m ((c : Thread nD τ).loc main_arg8) := by
  dsimp only [W9, W8, W7, hostOps2, hostOps2_1, hostOps2_2]
  read_results
  exact W6_arg8 m ρ c

end Cert.KernelIdeal.Host
-- ==== Proof.Spec.lean ====
/-
  The two dense layers after the first, as functions of whole arrays, entry by entry, on the extended reals.

  layer1 A b W: from the aggregated first-layer features A (100000 by 64), the bias b (64) and the second weight matrix W
  (32 by 64): entry (r, q) is the sum over k of max (A (r, k) + b k, 0) times W (q, k), that is relu (A + b) times the
  transposed W.

  tree A b2 Wg bg Lw: from the aggregated second-layer features A (100000 by 32), the bias b2, the gate weights Wg
  (32 by 32) and gate bias bg, and the leaf weights Lw (32 by 8): entry (r, q) is the sum over k of
  logistic ((sum over l of (A (r, l) + b2 l) times Wg (k, l)) + bg k) times Lw (k, q).
-/
import Idealize.ShloMosaic.Lib.ValueIdx
import Idealize.ShloMosaic.PureOps.Ideal

noncomputable section

namespace Cert.Spec

open Idealize.ShloMosaic Idealize.ShloMosaic.ValueIdx

/-- relu (A + b) times the transposed W, entry by entry. -/
def layer1 (A : (⟨2, ![100000, 64]⟩ : Shape).Idx → EReal) (b : (⟨1, ![64]⟩ : Shape).Idx → EReal)
    (W : (⟨2, ![32, 64]⟩ : Shape).Idx → EReal) : (⟨2, ![100000, 32]⟩ : Shape).Idx → EReal :=
  fun i => ∑ k : Fin 64, max (A (ix2 (i 0) k) + b (ix1 k)) 0 * W (ix2 (i 1) k)

/-- The gate pre-activation: (A + b2) times the transposed gate weights, plus the gate bias, at row r and gate k. -/
def gatePre (A : (⟨2, ![100000, 32]⟩ : Shape).Idx → EReal) (b2 : (⟨1, ![32]⟩ : Shape).Idx → EReal)
    (Wg : (⟨2, ![32, 32]⟩ : Shape).Idx → EReal) (bg : (⟨1, ![32]⟩ : Shape).Idx → EReal) (r : Fin 100000) (k : Fin 32) : EReal :=
  (∑ l : Fin 32, (A (ix2 r l) + b2 (ix1 l)) * Wg (ix2 k l)) + bg (ix1 k)

/-- logistic of the gate pre-activation, times the leaf weights, entry by entry. -/
def tree (A : (⟨2, ![100000, 32]⟩ : Shape).Idx → EReal) (b2 : (⟨1, ![32]⟩ : Shape).Idx → EReal)
    (Wg : (⟨2, ![32, 32]⟩ : Shape).Idx → EReal) (bg : (⟨1, ![32]⟩ : Shape).Idx → EReal)
    (Lw : (⟨2, ![32, 8]⟩ : Shape).Idx → EReal) : (⟨2, ![100000, 8]⟩ : Shape).Idx → EReal :=
  fun i => ∑ k : Fin 32, Ideal.logistic (gatePre A b2 Wg bg (i 0) k) * Lw (ix2 k (i 1))

end Cert.Spec
-- ==== Proof.Region1.lean ====
/-
  The second pipelined region: relu (A + b) times the transposed W2, computed 5000 rows at a time.

  At grid point t the body loads rows [5000 t, 5000 t + 5000) of the aggregated features A, the bias as one row of 64
  entries, and all of W2 (32 by 64).  It adds the bias row to every loaded row, takes the maximum with zero, transposes
  W2 and multiplies into a zero accumulator; the block it writes back is rows [5000 t, 5000 t + 5000) of the result.
  Entry (r, q) of a block is the sum over k of max (A (5000 t + r, k) + b k, 0) · W2 (q, k), which is entry
  (5000 t + r, q) of layer1 A b W2.  The twenty blocks tile the 100000 rows, so after the region the array holds
  layer1 A b W2.

  The host computes the same function one operation at a time: the bias broadcast to every row, the sum, the maximum
  with a zero splat, the transposed W2, and the product as a sum over the contraction; entry by entry that is the same
  sum, term by term.
-/
import proofs.«406410_j20169166422307_4_alg».proof.Proof.Gen.KernelIdeal.Frame
import proofs.«406410_j20169166422307_4_alg».proof.Proof.RefRead
import proofs.«406410_j20169166422307_4_alg».proof.Proof.LibPlainDot
import proofs.«406410_j20169166422307_4_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.ValueIdx Idealize.ShloMosaic.TcCoe Idealize.SL.Sem
open Idealize.ShloMosaic.Pipeline (Dat)

/-- layer1 at an entry: the sum over k of max (A (row, k) + b k, 0) times W (column, k). -/
theorem layer1_apply (A : (⟨2, ![100000, 64]⟩ : Shape).Idx → EReal) (b : (⟨1, ![64]⟩ : Shape).Idx → EReal)
    (W : (⟨2, ![32, 64]⟩ : Shape).Idx → EReal) (i : (⟨2, ![100000, 32]⟩ : Shape).Idx) :
    Cert.Spec.layer1 A b W i = ∑ k : Fin 64, max (A (ix2 (i 0) k) + b (ix1 k)) 0 * W (ix2 (i 1) k) := rfl

/-- The left factor of the body's product at row p and column k: the loaded row plus the bias row, cut off below at
    zero.  The two shape casts are identities, the bias row is repeated down the 5000 rows, and the zero splat is the
    extended real zero. -/
theorem act_apply (x0 : Vec Ideal S5000x64 .f32) (x1 : Vec Ideal S1x64 .f32) (p : Fin 5000) (k : Fin 64) :
    (maximumf (addf (shapeCast S5000x64 x0 shapeCasts_S5000x64_S5000x64 : FVec Ideal S5000x64 .f32)
        (broadcastTo S5000x64 (shapeCast S1x64 x1 shapeCasts_S1x64_S1x64 : FVec Ideal S1x64 .f32) broadcasts_S1x64_S5000x64))
      (broadcast S5000x64 (Scalar.ofBits .f32 0x00000000#32 : Ideal .f32)) : FVec Ideal S5000x64 .f32) (ix2 p k)
      = max (x0 (ix2 p k) + x1 (ix2 (0 : Fin 1) k)) 0 := by
  rw [shapeCast_self, shapeCast_self]
  show max (x0 (ix2 p k) + broadcastTo S5000x64 x1 broadcasts_S1x64_S5000x64 (ix2 p k)) (Ideal.ofBits .f32 0x00000000#32) = _
  rw [Ideal.ofBits_zero_f32]
  congr 2
  exact broadcastTo_apply x1 broadcasts_S1x64_S5000x64 (ix2 p k) (ix2 (0 : Fin 1) k) (fun a => match a with
    | ⟨0, _⟩ => by show (0 : Nat) = if (1 : Nat) = 1 then 0 else p.val; rw [if_pos rfl]
    | ⟨1, _⟩ => by show k.val = if (64 : Nat) = 1 then 0 else k.val; rw [if_neg (by decide)])

/-- The body's product at an entry of the block: the activated row against the row of W2. -/
theorem pay_apply (x0 : Vec Ideal S5000x64 .f32) (x1 : Vec Ideal S1x64 .f32) (x2 : Vec Ideal S32x64 .f32) (j : S5000x32.Idx) :
    k1_pay1 x0 x1 x2 j = ∑ k : Fin 64, max (x0 (ix2 (j 0) k) + x1 (ix2 (0 : Fin 1) k)) 0 * x2 (ix2 (j 1) k) := by
  unfold k1_pay1
  dsimp only
  rw [show dot_S5000x64_S64x32_S5000x32_1_0_0_1_n_n = DotDims.plain 5000 64 32 from rfl]
  refine (PlainDot.matmul_zero_plain_apply none _ _ j).trans ?_
  refine Finset.sum_congr rfl fun k _ => ?_
  congr 1
  · exact act_apply x0 x1 (j 0) k
  · exact transpose_apply [1, 0] x2 transposes_S32x64_p1_0_S64x32 (ix2 k (j 1)) (ix2 (j 1) k)
      (fun b => match b with | ⟨0, _⟩ => rfl | ⟨1, _⟩ => rfl)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move one block per point, the bias and weight windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of layer1 of the arrays the region finds, the bias read off its one row. -/
theorem flushed_eq (c : Dev nD) (b : (⟨1, ![64]⟩ : Shape).Idx → EReal)
    (hb : ∀ k : Fin 64, V c main_v46 (ix2 (0 : Fin 1) k) = b (ix1 k)) (t : Fin cfg1.N) :
    (dat1 V c).flushed 3 t = ((cfg1.win 3).blk t).view.read (Elt Ideal)
      (Cert.Spec.layer1 (V c main_v45) b (V c main_arg4)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S32x64) hz]
  obtain ⟨e0, e1, e2, e3, e4, e5, e6, e7⟩ := idx_facts t
  funext j
  show k1_pay1 (iblk1 V c 0 t) (iblk1 V c 1 t) (iblk1 V c 2 t) j
    = Cert.Spec.layer1 (V c main_v45) b (V c main_arg4) (((cfg1.win 3).blk t).view.emb j)
  refine ((pay_apply (iblk1 V c 0 t) (iblk1 V c 1 t) (iblk1 V c 2 t) j).trans ?_).trans
    (layer1_apply (V c main_v45) b (V c main_arg4) (((cfg1.win 3).blk t).view.emb j)).symm
  refine Finset.sum_congr rfl fun k _ => ?_
  congr 1
  · congr 2
    · show V c main_v45 (((cfg1.win 0).blk t).view.emb (ix2 (j 0) k))
        = V c main_v45 (ix2 ((((cfg1.win 3).blk t).view.emb j) 0) k)
      refine congrArg _ (funext fun a => Fin.ext ?_)
      match a with
      | ⟨0, _⟩ =>
        show win1_0.index t (0 : Fin 2) * 5000 + 1 * (j 0).val = win1_3.index t (0 : Fin 2) * 5000 + 1 * (j 0).val
        omega
      | ⟨1, _⟩ =>
        show win1_0.index t (1 : Fin 2) * 64 + 1 * k.val = k.val
        omega
    · show V c main_v46 (((cfg1.win 1).blk t).view.emb (ix2 (0 : Fin 1) k)) = b (ix1 k)
      refine (congrArg (V c main_v46) (funext fun a => Fin.ext ?_)).trans (hb k)
      match a with
      | ⟨0, _⟩ =>
        show win1_1.index t (0 : Fin 2) * 1 + 1 * 0 = 0
        omega
      | ⟨1, _⟩ =>
        show win1_1.index t (1 : Fin 2) * 64 + 1 * k.val = k.val
        omega
  · show V c main_arg4 (((cfg1.win 2).blk t).view.emb (ix2 (j 1) k))
      = V c main_arg4 (ix2 ((((cfg1.win 3).blk t).view.emb j) 1) k)
    refine congrArg _ (funext fun a => Fin.ext ?_)
    match a with
    | ⟨0, _⟩ =>
      show win1_2.index t (0 : Fin 2) * 32 + 1 * (j 1).val = win1_3.index t (1 : Fin 2) * 32 + 1 * (j 1).val
      omega
    | ⟨1, _⟩ =>
      show win1_2.index t (1 : Fin 2) * 64 + 1 * k.val = k.val
      omega

/-- An index of the array is in point t's block iff each coordinate is in the block's range on its axis. -/
theorem mem_blk (t : Fin cfg1.N) (i : S100000x32.Idx) :
    i ∈ ((cfg1.win 3).blk t).view.set ↔ ∀ a : Fin 2, win1_3.index t a * S5000x32.size a ≤ (i a).val
      ∧ (i a).val < win1_3.index t a * S5000x32.size a + S5000x32.size a := by
  show i ∈ ((View.whole main_v47).slice (win1_3.rect t)).set ↔ _
  rw [View.set_slice_whole, Rect.mem_set_unit]
  exact Iff.rfl

/-- Every row lies in the block of the point numbered by the row's quotient by 5000. -/
theorem cover (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hlt : (i 0).val / 5000 < cfg1.N := by show (i 0).val / 5000 < grid1.N; rw [N_1]; omega
  obtain ⟨e0, e1, e2, e3, e4, e5, e6, e7⟩ := idx_facts ⟨(i 0).val / 5000, hlt⟩
  refine ⟨⟨(i 0).val / 5000, hlt⟩, flush1_3 _, ?_⟩
  rw [mem_blk]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    simp only [] at e6
    omega
  | ⟨1, _⟩ =>
    show win1_3.index ⟨(i 0).val / 5000, hlt⟩ (1 : Fin 2) * 32 ≤ (i 1).val
      ∧ (i 1).val < win1_3.index ⟨(i 0).val / 5000, hlt⟩ (1 : Fin 2) * 32 + 32
    omega

/-- After the region the output array holds layer1 of the aggregated features, the bias and W2. -/
theorem final (c : Dev nD) (b : (⟨1, ![64]⟩ : Shape).Idx → EReal)
    (hb : ∀ k : Fin 64, V c main_v46 (ix2 (0 : Fin 1) k) = b (ix1 k)) :
    (dat1 V c).arrAt 3 cfg1.N = Cert.Spec.layer1 (V c main_v45) b (V c main_arg4) :=
  (dat1 V c).arrAt_eq_of_cover 3 _ (fun t _ => flushed_eq V c b hb t) cover

/-- The host's second layer, one operation at a time, is layer1 of its aggregated features, its bias and W2: the
    product is the sum over the contraction, its left factor the maximum of (features plus broadcast bias) with the
    zero splat, its right factor the transposed W2. -/
theorem ref_layer1 (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S64x128, .f32⟩ : BufTy).Contents (Elt Ideal))
    (x3 : (⟨Cert.ReferenceIdeal.S64, .f32⟩ : BufTy).Contents (Elt Ideal))
    (x4 : (⟨Cert.ReferenceIdeal.S32x64, .f32⟩ : BufTy).Contents (Elt Ideal)) :
    Cert.ReferenceIdeal.Read.val_main_v82 x0 x1 x2 x3 x4
      = Cert.Spec.layer1 (Cert.ReferenceIdeal.Read.val_main_v45 x0 x1 x2) x3 x4 := by
  funext i
  refine ((Cert.ReferenceIdeal.Read.val_main_v82_apply x0 x1 x2 x3 x4 i).trans ?_).trans
    (layer1_apply (Cert.ReferenceIdeal.Read.val_main_v45 x0 x1 x2) x3 x4 i).symm
  refine Finset.sum_congr rfl fun k _ => ?_
  rw [Cert.ReferenceIdeal.Read.val_main_v49_apply, Cert.ReferenceIdeal.Read.val_main_v48_apply,
    Cert.ReferenceIdeal.Read.val_main_v47_apply, Cert.ReferenceIdeal.Read.val_main_v46_apply,
    Cert.ReferenceIdeal.Read.val_main_call1_v0_apply, Cert.ReferenceIdeal.Read.val_main_call1_cst_apply,
    Cert.ReferenceIdeal.Read.val_main_v81_apply]
  generalize Cert.ReferenceIdeal.Read.val_main_v45 (F := Ideal) x0 x1 x2 = A
  show max (A (Cert.ReferenceIdeal.Read.lidx_main_v82 i k)
      + x3 (Cert.ReferenceIdeal.Read.idx_main_v46 (Cert.ReferenceIdeal.Read.idx_main_v47 (Cert.ReferenceIdeal.Read.lidx_main_v82 i k))))
      (Ideal.ofBits .f32 0x00000000#32)
    * x4 (Cert.ReferenceIdeal.Read.idx_main_v81 (Cert.ReferenceIdeal.Read.ridx_main_v82 i k)) = _
  rw [Ideal.ofBits_zero_f32]
  congr 1
  · congr 2
    · exact congrArg A (funext fun a => by match a with | ⟨0, _⟩ => rfl | ⟨1, _⟩ => rfl)
    · exact congrArg x3 (funext fun a => by match a with | ⟨0, _⟩ => rfl)
  · exact congrArg x4 (funext fun a => by match a with | ⟨0, _⟩ => rfl | ⟨1, _⟩ => rfl)

end Cert.KernelIdeal.Region1
-- ==== Proof.Region2.lean ====
/-
  The third pipelined region: the soft decision tree's leaf mixture, computed 5000 rows at a time.

  At grid point t the body loads rows [5000 t, 5000 t + 5000) of the aggregated second-layer features A, the bias b2 as
  one row, the gate weights Wg, the gate bias bg as one row, and the leaf weights padded with zero columns to width 128.
  It adds the bias row to every loaded row, multiplies by the transposed gate weights into a zero accumulator, adds the
  gate bias row, applies the logistic function, and multiplies by the padded leaf weights into a zero accumulator.  Entry
  (p, q) of the block it writes back is the sum over k of
  logistic ((sum over l of (A (5000 t + p, l) + b2 l) * Wg (k, l)) + bg k) * L (k, q), which is entry (5000 t + p, q) of
  the same expression over the whole arrays.  The twenty blocks tile the 100000 rows, so after the region the output
  array holds that expression on all 128 columns; at a column below 8 the padded leaf weights are the leaf weights and
  the expression is the tree function.

  The reference spells its sigmoid as one over (one plus the exponential of the negation); on the extended reals that is
  the logistic function by definition, so the reference's closing operations, read one at a time from the aggregated
  second-layer features on, are the same tree function.
-/
import proofs.«406410_j20169166422307_4_alg».proof.Proof.Gen.KernelIdeal.Frame
import proofs.«406410_j20169166422307_4_alg».proof.Proof.RefRead
import proofs.«406410_j20169166422307_4_alg».proof.Proof.LibPlainDot
import proofs.«406410_j20169166422307_4_alg».proof.Proof.Spec
import Idealize.ShloMosaic.Lib.Pipeline.Value
import Idealize.ShloMosaic.Lib.ValueIdx
import Idealize.ShloMosaic.Lib.IdealHost

set_option maxRecDepth 16384

noncomputable section

namespace Cert.KernelIdeal.Region2

open Cert.KernelIdeal Cert.KernelIdeal.Gen
open Idealize.ShloMosaic Idealize.ShloMosaic.ValueIdx Idealize.ShloMosaic.TcCoe Idealize.SL.Sem
open Idealize.ShloMosaic.Pipeline (Dat)

/-- logistic ((A + b2) times the transposed Wg, plus bg) times L, entry by entry, for R rows and C columns of L; the two
    biases are given as arrays of one row. -/
def treeRows {R C : Nat} (A : (⟨2, ![R, 32]⟩ : Shape).Idx → EReal) (b2 : (⟨2, ![1, 32]⟩ : Shape).Idx → EReal)
    (Wg : (⟨2, ![32, 32]⟩ : Shape).Idx → EReal) (bg : (⟨2, ![1, 32]⟩ : Shape).Idx → EReal)
    (L : (⟨2, ![32, C]⟩ : Shape).Idx → EReal) : (⟨2, ![R, C]⟩ : Shape).Idx → EReal :=
  fun i => ∑ k : Fin 32, Ideal.logistic ((∑ l : Fin 32, (A (ix2 (i 0) l) + b2 (ix2 0 l)) * Wg (ix2 k l)) + bg (ix2 0 k))
    * L (ix2 k (i 1))

/-- Two such entries agree when the operands agree at the entries read. -/
theorem treeRows_congr {R R' C C' : Nat} (A : (⟨2, ![R, 32]⟩ : Shape).Idx → EReal) (A' : (⟨2, ![R', 32]⟩ : Shape).Idx → EReal)
    (b2 b2' : (⟨2, ![1, 32]⟩ : Shape).Idx → EReal) (Wg Wg' : (⟨2, ![32, 32]⟩ : Shape).Idx → EReal)
    (bg bg' : (⟨2, ![1, 32]⟩ : Shape).Idx → EReal) (L : (⟨2, ![32, C]⟩ : Shape).Idx → EReal)
    (L' : (⟨2, ![32, C']⟩ : Shape).Idx → EReal) (i : (⟨2, ![R, C]⟩ : Shape).Idx) (i' : (⟨2, ![R', C']⟩ : Shape).Idx)
    (hA : ∀ l : Fin 32, A (ix2 (i 0) l) = A' (ix2 (i' 0) l)) (hb2 : ∀ l : Fin 32, b2 (ix2 0 l) = b2' (ix2 0 l))
    (hW : ∀ k l : Fin 32, Wg (ix2 k l) = Wg' (ix2 k l)) (hbg : ∀ k : Fin 32, bg (ix2 0 k) = bg' (ix2 0 k))
    (hL : ∀ k : Fin 32, L (ix2 k (i 1)) = L' (ix2 k (i' 1))) :
    treeRows A b2 Wg bg L i = treeRows A' b2' Wg' bg' L' i' := by
  unfold treeRows
  refine Finset.sum_congr rfl fun k _ => ?_
  rw [hL k, hbg k]
  refine congrArg (fun s => Ideal.logistic (s + bg' (ix2 0 k)) * L' (ix2 k (i' 1))) ?_
  refine Finset.sum_congr rfl fun l _ => ?_
  rw [hA l, hb2 l, hW k l]

/-- A row array broadcast over 5000 rows, read at an entry: the row's entry in that column. -/
theorem row_apply (v : Vec Ideal S1x32 .f32) (p : Fin 5000) (k : Fin 32) :
    broadcastTo S5000x32 (shapeCast S1x32 v shapeCasts_S1x32_S1x32) broadcasts_S1x32_S5000x32 (ix2 p k) = v (ix2 0 k) := by
  rw [shapeCast_self]
  exact broadcastTo_apply v broadcasts_S1x32_S5000x32 (ix2 p k) (ix2 0 k)
    (fun a => match a with | ⟨0, _⟩ => rfl | ⟨1, _⟩ => rfl)

/-- The body's value at an entry of the block. -/
theorem pay_apply (v0 : Vec Ideal S5000x32 .f32) (v2 : Vec Ideal S1x32 .f32) (v6 : Vec Ideal S32x32 .f32)
    (v9 : Vec Ideal S1x32 .f32) (v14 : Vec Ideal S32x128 .f32) (j : S5000x128.Idx) :
    k2_pay1 v0 v2 v6 v9 v14 j = treeRows (R := 5000) (C := 128) v0 v2 v6 v9 v14 j := by
  unfold k2_pay1 treeRows
  dsimp only
  rw [show dot_S5000x32_S32x128_S5000x128_1_0_0_1_n_n = DotDims.plain 5000 32 128 from rfl,
    show dot_S5000x32_S32x32_S5000x32_1_0_0_1_n_n = DotDims.plain 5000 32 32 from rfl]
  refine (PlainDot.matmul_zero_plain_apply none _ _ j).trans ?_
  refine Finset.sum_congr rfl fun k _ => ?_
  congr 1
  · refine congrArg Ideal.logistic ?_
    refine (addf_apply _ _ _).trans ?_
    congr 1
    · refine (PlainDot.matmul_zero_plain_apply none _ _ (ix2 (j 0) k)).trans ?_
      refine Finset.sum_congr rfl fun l _ => ?_
      congr 1
      · refine (addf_apply _ _ _).trans ?_
        congr 1
        · rw [shapeCast_self]
          rfl
        · exact row_apply v2 (j 0) l
      · exact transpose_apply [1, 0] v6 transposes_S32x32_p1_0_S32x32 (ix2 l k) (ix2 k l)
          (fun b => match b with | ⟨0, _⟩ => rfl | ⟨1, _⟩ => rfl)
    · exact row_apply v9 (j 0) k
  · rw [shapeCast_self]

/-- At a column below 8, with the bias rows read as the bias vectors and the padded leaf weights read as the leaf
    weights there, the 128-column function is the tree function. -/
theorem treeRows_eq_tree (A : (⟨2, ![100000, 32]⟩ : Shape).Idx → EReal) (b2r : (⟨2, ![1, 32]⟩ : Shape).Idx → EReal)
    (Wg : (⟨2, ![32, 32]⟩ : Shape).Idx → EReal) (bgr : (⟨2, ![1, 32]⟩ : Shape).Idx → EReal)
    (Lp : (⟨2, ![32, 128]⟩ : Shape).Idx → EReal) (b2 bg : (⟨1, ![32]⟩ : Shape).Idx → EReal)
    (Lw : (⟨2, ![32, 8]⟩ : Shape).Idx → EReal) (hb2 : ∀ k : Fin 32, b2r (ix2 0 k) = b2 (ix1 k))
    (hbg : ∀ k : Fin 32, bgr (ix2 0 k) = bg (ix1 k))
    (hL : ∀ (k : Fin 32) (q : Fin 8), Lp (ix2 k ⟨q.val, by omega⟩) = Lw (ix2 k q)) (r : Fin 100000) (q : Fin 8) :
    treeRows A b2r Wg bgr Lp (ix2 r ⟨q.val, by omega⟩) = Cert.Spec.tree A b2 Wg bg Lw (ix2 r q) := by
  unfold treeRows Cert.Spec.tree Cert.Spec.gatePre
  refine Finset.sum_congr rfl fun k _ => ?_
  show Ideal.logistic ((∑ l : Fin 32, (A (ix2 r l) + b2r (ix2 0 l)) * Wg (ix2 k l)) + bgr (ix2 0 k))
      * Lp (ix2 k ⟨q.val, by omega⟩)
    = Ideal.logistic ((∑ l : Fin 32, (A (ix2 r l) + b2 (ix1 l)) * Wg (ix2 k l)) + bg (ix1 k)) * Lw (ix2 k q)
  rw [hbg k, hL k q]
  refine congrArg (fun s => Ideal.logistic (s + bg (ix1 k)) * Lw (ix2 k q)) ?_
  refine Finset.sum_congr rfl fun l _ => ?_
  rw [hb2 l]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows (the input rows and the output rows) move one block per
    point; the two bias rows, the gate weights and the padded leaf weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The whole-array function the region computes, from the arrays the region finds. -/
def G (c : Dev nD) : (⟨S100000x128, .f32⟩ : BufTy).Contents (Elt Ideal) :=
  treeRows (R := 100000) (C := 128) (V c main_v60) (V c main_v62) (V c main_arg6) (V c main_v63) (V c main_v61)

/-- What point t writes back is block t of that function. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x32) hz, View.ld_unit_zero (S := S1x32) hz,
    View.ld_unit_zero (S := S32x32) hz, View.ld_unit_zero (S := S32x128) hz]
  obtain ⟨e00, e01, e10, e11, e20, e21, e30, e31, e40, e41, e50, e51⟩ := idx_facts t
  funext j
  show k2_pay1 (iblk2 V c 0 t) (iblk2 V c 1 t) (iblk2 V c 2 t) (iblk2 V c 3 t) (iblk2 V c 4 t) j
    = G V c (((cfg2.win 5).blk t).view.emb j)
  refine (pay_apply (iblk2 V c 0 t) (iblk2 V c 1 t) (iblk2 V c 2 t) (iblk2 V c 3 t) (iblk2 V c 4 t) j).trans ?_
  unfold G
  refine treeRows_congr (iblk2 V c 0 t) (V c main_v60) (iblk2 V c 1 t) (V c main_v62) (iblk2 V c 2 t) (V c main_arg6)
    (iblk2 V c 3 t) (V c main_v63) (iblk2 V c 4 t) (V c main_v61) j (((cfg2.win 5).blk t).view.emb j) ?_ ?_ ?_ ?_ ?_
  · intro l
    show V c main_v60 (((cfg2.win 0).blk t).view.emb (ix2 (j 0) l))
      = V c main_v60 (ix2 ((((cfg2.win 5).blk t).view.emb j) 0) l)
    refine congrArg _ (funext fun a => Fin.ext ?_)
    match a with
    | ⟨0, _⟩ =>
      show win2_0.index t (0 : Fin 2) * 5000 + 1 * (j 0).val = win2_5.index t (0 : Fin 2) * 5000 + 1 * (j 0).val
      omega
    | ⟨1, _⟩ =>
      show win2_0.index t (1 : Fin 2) * 32 + 1 * l.val = l.val
      omega
  · intro l
    show V c main_v62 (((cfg2.win 1).blk t).view.emb (ix2 0 l)) = V c main_v62 (ix2 0 l)
    refine congrArg _ (funext fun a => Fin.ext ?_)
    match a with
    | ⟨0, _⟩ =>
      show win2_1.index t (0 : Fin 2) * 1 + 1 * 0 = 0
      omega
    | ⟨1, _⟩ =>
      show win2_1.index t (1 : Fin 2) * 32 + 1 * l.val = l.val
      omega
  · intro k l
    show V c main_arg6 (((cfg2.win 2).blk t).view.emb (ix2 k l)) = V c main_arg6 (ix2 k l)
    refine congrArg _ (funext fun a => Fin.ext ?_)
    match a with
    | ⟨0, _⟩ =>
      show win2_2.index t (0 : Fin 2) * 32 + 1 * k.val = k.val
      omega
    | ⟨1, _⟩ =>
      show win2_2.index t (1 : Fin 2) * 32 + 1 * l.val = l.val
      omega
  · intro k
    show V c main_v63 (((cfg2.win 3).blk t).view.emb (ix2 0 k)) = V c main_v63 (ix2 0 k)
    refine congrArg _ (funext fun a => Fin.ext ?_)
    match a with
    | ⟨0, _⟩ =>
      show win2_3.index t (0 : Fin 2) * 1 + 1 * 0 = 0
      omega
    | ⟨1, _⟩ =>
      show win2_3.index t (1 : Fin 2) * 32 + 1 * k.val = k.val
      omega
  · intro k
    show V c main_v61 (((cfg2.win 4).blk t).view.emb (ix2 k (j 1)))
      = V c main_v61 (ix2 k ((((cfg2.win 5).blk t).view.emb j) 1))
    refine congrArg _ (funext fun a => Fin.ext ?_)
    match a with
    | ⟨0, _⟩ =>
      show win2_4.index t (0 : Fin 2) * 32 + 1 * k.val = k.val
      omega
    | ⟨1, _⟩ =>
      show win2_4.index t (1 : Fin 2) * 128 + 1 * (j 1).val = win2_5.index t (1 : Fin 2) * 128 + 1 * (j 1).val
      omega

/-- An index of the array is in point t's block iff each coordinate is in the block's range on its axis. -/
theorem mem_blk (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v64).slice (win2_5.rect t)).set ↔ _
  rw [View.set_slice_whole, Rect.mem_set_unit]
  exact Iff.rfl

/-- Every row lies in the block of the point numbered by the row's quotient by 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hlt : (i 0).val / 5000 < cfg2.N := by show (i 0).val / 5000 < grid2.N; rw [N_2]; omega
  obtain ⟨e00, e01, e10, e11, e20, e21, e30, e31, e40, e41, e50, e51⟩ := idx_facts ⟨(i 0).val / 5000, hlt⟩
  refine ⟨⟨(i 0).val / 5000, hlt⟩, flush2_5 _, ?_⟩
  rw [mem_blk]
  intro a
  match a with
  | ⟨0, _⟩ =>
    show win2_5.index ⟨(i 0).val / 5000, hlt⟩ (0 : Fin 2) * 5000 ≤ (i 0).val
      ∧ (i 0).val < win2_5.index ⟨(i 0).val / 5000, hlt⟩ (0 : Fin 2) * 5000 + 5000
    simp only [] at e50
    omega
  | ⟨1, _⟩ =>
    show win2_5.index ⟨(i 0).val / 5000, hlt⟩ (1 : Fin 2) * 128 ≤ (i 1).val
      ∧ (i 1).val < win2_5.index ⟨(i 0).val / 5000, hlt⟩ (1 : Fin 2) * 128 + 128
    omega

/-- After the region the output array holds that function of the arrays the region found, on all 128 columns. -/
theorem final128 (c : Dev nD) : (dat2 V c).arrAt 5 cfg2.N = G V c :=
  (dat2 V c).arrAt_eq_of_cover 5 _ (fun t _ => flushed_eq V c t) cover

/-- After the region, at a column below 8, the output array holds the tree function of the arrays the region found,
    with the bias rows read as the bias vectors and the padded leaf weights read as the leaf weights. -/
theorem final (c : Dev nD) (b2 bg : (⟨1, ![32]⟩ : Shape).Idx → EReal) (Lw : (⟨2, ![32, 8]⟩ : Shape).Idx → EReal)
    (hb2 : ∀ k : Fin 32, V c main_v62 (ix2 0 k) = b2 (ix1 k)) (hbg : ∀ k : Fin 32, V c main_v63 (ix2 0 k) = bg (ix1 k))
    (hL : ∀ (k : Fin 32) (q : Fin 8), V c main_v61 (ix2 k ⟨q.val, by omega⟩) = Lw (ix2 k q))
    (r : Fin 100000) (q : Fin 8) :
    (dat2 V c).arrAt 5 cfg2.N (ix2 r ⟨q.val, by omega⟩)
      = Cert.Spec.tree (V c main_v60) b2 (V c main_arg6) bg Lw (ix2 r q) := by
  rw [final128]
  unfold G
  exact treeRows_eq_tree (V c main_v60) (V c main_v62) (V c main_arg6) (V c main_v63) (V c main_v61) b2 bg Lw
    hb2 hbg hL r q

open Cert.ReferenceIdeal.Read in
/-- The reference's closing stretch, one operation at a time from the aggregated second-layer features on, is the tree
    function of them: its sigmoid is spelled one over (one plus the exponential of the negation), which is the logistic
    function on all extended reals. -/
theorem ref_tree (x0 : (⟨Cert.ReferenceIdeal.S100000x128, .f32⟩ : BufTy).Contents (Elt Ideal))
    (x1 : (⟨Cert.ReferenceIdeal.S2x3200000, .i32⟩ : BufTy).Contents (Elt Ideal))
    (x2 : (⟨Cert.ReferenceIdeal.S64x128, .f32⟩ : BufTy).Contents (Elt Ideal))
    (x3 : (⟨Cert.ReferenceIdeal.S64, .f32⟩ : BufTy).Contents (Elt Ideal))
    (x4 : (⟨Cert.ReferenceIdeal.S32x64, .f32⟩ : BufTy).Contents (Elt Ideal))
    (x5 : (⟨Cert.ReferenceIdeal.S32, .f32⟩ : BufTy).Contents (Elt Ideal))
    (x6 : (⟨Cert.ReferenceIdeal.S32x32, .f32⟩ : BufTy).Contents (Elt Ideal))
    (x7 : (⟨Cert.ReferenceIdeal.S32, .f32⟩ : BufTy).Contents (Elt Ideal))
    (x8 : (⟨Cert.ReferenceIdeal.S32x8, .f32⟩ : BufTy).Contents (Elt Ideal)) :
    val_main_v110 x0 x1 x2 x3 x4 x5 x6 x7 x8 = Cert.Spec.tree (val_main_v95 x0 x1 x2 x3 x4) x5 x6 x7 x8 := by
  funext i
  rw [val_main_v110_apply]
  unfold Cert.Spec.tree Cert.Spec.gatePre
  refine Finset.sum_congr rfl fun k _ => ?_
  rw [val_main_v109_apply, val_main_v108_apply, val_main_cst_21_apply, val_main_v107_apply, val_main_v106_apply,
    val_main_cst_20_apply, val_main_v105_apply, val_main_v104_apply, val_main_v103_apply, val_main_v102_apply,
    val_main_v101_apply, val_main_v100_apply]
  have hS : ∀ l : Fin 32, val_main_v98 x0 x1 x2 x3 x4 x5 (lidx_main_v100 (lidx_main_v110 i k) l)
        * val_main_v99 x6 (ridx_main_v100 (lidx_main_v110 i k) l)
      = (val_main_v95 x0 x1 x2 x3 x4 (ix2 (i 0) l) + x5 (ix1 l)) * x6 (ix2 k l) := by
    intro l
    rw [val_main_v98_apply, val_main_v97_apply, val_main_v96_apply, val_main_v99_apply]
    generalize val_main_v95 x0 x1 x2 x3 x4 = A
    have e1 : lidx_main_v100 (lidx_main_v110 i k) l = ix2 (i 0) l :=
      funext fun a => by match a with | ⟨0, _⟩ => rfl | ⟨1, _⟩ => rfl
    have e2 : idx_main_v96 (idx_main_v97 (lidx_main_v100 (lidx_main_v110 i k) l)) = ix1 l :=
      funext fun a => by match a with | ⟨0, _⟩ => rfl
    have e3 : idx_main_v99 (ridx_main_v100 (lidx_main_v110 i k) l) = ix2 k l :=
      funext fun a => by match a with | ⟨0, _⟩ => rfl | ⟨1, _⟩ => rfl
    rw [e2, e1, e3]
    rfl
  have e7 : idx_main_v101 (idx_main_v102 (lidx_main_v110 i k)) = ix1 k :=
    funext fun a => by match a with | ⟨0, _⟩ => rfl
  have e8 : ridx_main_v110 i k = ix2 k (i 1) :=
    funext fun a => by match a with | ⟨0, _⟩ => rfl | ⟨1, _⟩ => rfl
  rw [e7, e8]
  generalize val_main_v95 x0 x1 x2 x3 x4 = A at hS ⊢
  rw [Ideal.hostDivf_def, Ideal.ofBits_def, Ideal.ofBits_one_f32, Ideal.addf_def, Ideal.hostUnary_exp_def,
    Ideal.hostNegf_def, Ideal.negf_def, Ideal.addf_def]
  unfold Ideal.logistic
  refine congrArg (fun s => Ideal.div 1 (1 + Ideal.exp (-(s + x7 (ix1 k)))) * x8 (ix2 k (i 1))) ?_
  exact Finset.sum_congr rfl fun l _ => hS l

end Cert.KernelIdeal.Region2
-- ==== Proof.RefTwice.lean ====
/-
  The reference computes the message sources, the destinations and the normalisation once per layer.  The second
  computation applies the same operations to the same edge list, so its values are the first's.
-/
import proofs.«406410_j20169166422307_4_alg».proof.Proof.RefRead

set_option maxRecDepth 16384

noncomputable section

namespace Cert.ReferenceIdeal.Twice

open Cert.ReferenceIdeal Cert.ReferenceIdeal.Read Idealize.ShloMosaic

variable {F : FTy → Type} [FloatOps F]

theorem src (x1 : (⟨S2x3200000, .i32⟩ : BufTy).Contents (Elt F)) : val_main_v53 (F := F) x1 = val_main_v3 (F := F) x1 := rfl
theorem dst (x1 : (⟨S2x3200000, .i32⟩ : BufTy).Contents (Elt F)) : val_main_v57 (F := F) x1 = val_main_v7 (F := F) x1 := rfl
theorem norm (x1 : (⟨S2x3200000, .i32⟩ : BufTy).Contents (Elt F)) : val_main_v80 (F := F) x1 = val_main_v30 (F := F) x1 := rfl

end Cert.ReferenceIdeal.Twice
-- ==== Proof.HostC.lean ====
/-
  From the second region to the result.

  After the second region its output buffer holds relu (agg1 + b1) times the transposed W2, the reference's value of
  the same name.  The host operations that follow aggregate it over the messages exactly as the reference does, pad the
  leaf weights with 120 zero columns, and reshape the two biases to one row each.  After the third region the output
  buffer holds, in its first eight columns, logistic ((agg2 + b2) times the transposed gate weights + gate bias) times
  the leaf weights: the padding columns never enter an entry of the first eight columns.  The last operation keeps
  exactly those columns.
-/
import proofs.«406410_j20169166422307_4_alg».proof.Proof.HostB
import proofs.«406410_j20169166422307_4_alg».proof.Proof.HostArgs
import proofs.«406410_j20169166422307_4_alg».proof.Proof.Region1
import proofs.«406410_j20169166422307_4_alg».proof.Proof.Region2
import proofs.«406410_j20169166422307_4_alg».proof.Proof.RefTwice
import Idealize.ShloMosaic.Lib.ValueLayout
import Idealize.ShloMosaic.Lib.KernelVsHost

set_option maxRecDepth 16384

noncomputable section

namespace Cert.KernelIdeal.Host

open Cert.KernelIdeal Cert.KernelIdeal.Gen
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- The second stretch leaves the sources, the destinations and the normalisation alone. -/
theorem W5_src (c : Dev nD) :
    W5 m ρ c (Proc.devRef .tc main_v3) = Cert.ReferenceIdeal.Read.val_main_v3 (m ((c : Thread nD τ).loc main_arg1)) := by
  dsimp only [W5, hostOps1]
  read_results
  exact W4_src m ρ c
theorem W5_dst (c : Dev nD) :
    W5 m ρ c (Proc.devRef .tc main_v7) = Cert.ReferenceIdeal.Read.val_main_v7 (m ((c : Thread nD τ).loc main_arg1)) := by
  dsimp only [W5, hostOps1]
  read_results
  exact W4_dst m ρ c
theorem W5_norm (c : Dev nD) :
    W5 m ρ c (Proc.devRef .tc main_v31) = Cert.ReferenceIdeal.Read.val_main_v30 (m ((c : Thread nD τ).loc main_arg1)) := by
  dsimp only [W5, hostOps1]
  read_results
  exact W4_norm m ρ c

/-- The first bias, reshaped to one row, read at a column. -/
theorem W5_bias (c : Dev nD) (k : Fin 64) : V5 m ρ c main_v46 (ix2 0 k) = (m ((c : Thread nD τ).loc main_arg3)) (ix1 k) := by
  have h : W5 m ρ c (Proc.devRef .tc main_v46) = shapeCast S1x64 (m ((c : Thread nD τ).loc main_arg3)) shapeCasts_S64_S1x64 := by
    dsimp only [W5, hostOps1]
    read_results
    rw [W4_arg3]
    rfl
  show W5 m ρ c (Proc.devRef .tc main_v46) (ix2 0 k) = _
  rw [h]
  exact shapeCast_a_1a_apply _ _ 0 k

/-- After the second region its output holds the reference's second-layer features before aggregation. -/
theorem W6_feat (c : Dev nD) :
    W6 m ρ c (Proc.devRef .tc main_v47)
      = Cert.ReferenceIdeal.Read.val_main_v82 (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ((Region1.final (V5 m ρ) c (m ((c : Thread nD τ).loc main_arg3)) (W5_bias m ρ c)).trans ?_)
  rw [show V5 m ρ c main_v45 = _ from W5_agg m ρ c, show V5 m ρ c main_arg4 = _ from W5_arg4 m ρ c]
  exact (Region1.ref_layer1 _ _ _ _ _).symm

theorem W6_src (c : Dev nD) :
    W6 m ρ c (Proc.devRef .tc main_v3) = Cert.ReferenceIdeal.Read.val_main_v3 (m ((c : Thread nD τ).loc main_arg1)) :=
  (W6_of_ne m ρ c main_v3 (by decide)).trans (W5_src m ρ c)
theorem W6_dst (c : Dev nD) :
    W6 m ρ c (Proc.devRef .tc main_v7) = Cert.ReferenceIdeal.Read.val_main_v7 (m ((c : Thread nD τ).loc main_arg1)) :=
  (W6_of_ne m ρ c main_v7 (by decide)).trans (W5_dst m ρ c)
theorem W6_norm (c : Dev nD) :
    W6 m ρ c (Proc.devRef .tc main_v31) = Cert.ReferenceIdeal.Read.val_main_v30 (m ((c : Thread nD τ).loc main_arg1)) :=
  (W6_of_ne m ρ c main_v31 (by decide)).trans (W5_norm m ρ c)

/-- The aggregated second-layer features. -/
theorem W9_agg (c : Dev nD) :
    W9 m ρ c (Proc.devRef .tc main_v60)
      = Cert.ReferenceIdeal.Read.val_main_v95 (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W9, W8, W7, hostOps2, hostOps2_1, hostOps2_2]
  read_results
  rw [W6_feat, W6_src, W6_dst, W6_norm, ← Cert.ReferenceIdeal.Twice.src, ← Cert.ReferenceIdeal.Twice.dst,
    ← Cert.ReferenceIdeal.Twice.norm]
  simp only [Cert.ReferenceIdeal.Read.val_main_v83, Cert.ReferenceIdeal.Read.val_main_c_17, Cert.ReferenceIdeal.Read.val_main_v84, Cert.ReferenceIdeal.Read.val_main_v85, Cert.ReferenceIdeal.Read.val_main_c_18, Cert.ReferenceIdeal.Read.val_main_v86, Cert.ReferenceIdeal.Read.val_main_v87, Cert.ReferenceIdeal.Read.val_main_v88, Cert.ReferenceIdeal.Read.val_main_v89, Cert.ReferenceIdeal.Read.val_main_v90, Cert.ReferenceIdeal.Read.val_main_v91, Cert.ReferenceIdeal.Read.val_main_v92, Cert.ReferenceIdeal.Read.val_main_cst_19, Cert.ReferenceIdeal.Read.val_main_v93, Cert.ReferenceIdeal.Read.val_main_v94, Cert.ReferenceIdeal.Read.val_main_v95]
  rfl

/-- The second bias and the gate bias, each reshaped to one row, read at a column. -/
theorem W9_b2 (c : Dev nD) (k : Fin 32) : V9 m ρ c main_v62 (ix2 0 k) = (m ((c : Thread nD τ).loc main_arg5)) (ix1 k) := by
  have h : W9 m ρ c (Proc.devRef .tc main_v62) = shapeCast S1x32 (m ((c : Thread nD τ).loc main_arg5)) shapeCasts_S32_S1x32 := by
    dsimp only [W9, W8, W7, hostOps2, hostOps2_1, hostOps2_2]
    read_results
    rw [W6_arg5]
    rfl
  show W9 m ρ c (Proc.devRef .tc main_v62) (ix2 0 k) = _
  rw [h]
  exact shapeCast_a_1a_apply _ _ 0 k
theorem W9_bg (c : Dev nD) (k : Fin 32) : V9 m ρ c main_v63 (ix2 0 k) = (m ((c : Thread nD τ).loc main_arg7)) (ix1 k) := by
  have h : W9 m ρ c (Proc.devRef .tc main_v63) = shapeCast S1x32 (m ((c : Thread nD τ).loc main_arg7)) shapeCasts_S32_S1x32 := by
    dsimp only [W9, W8, W7, hostOps2, hostOps2_1, hostOps2_2]
    read_results
    rw [W6_arg7]
    rfl
  show W9 m ρ c (Proc.devRef .tc main_v63) (ix2 0 k) = _
  rw [h]
  exact shapeCast_a_1a_apply _ _ 0 k

/-- The padded leaf weights, read at one of the first eight columns, are the leaf weights. -/
theorem W9_leaf (c : Dev nD) (k : Fin 32) (q : Fin 8) :
    V9 m ρ c main_v61 (ix2 k ⟨q.val, by omega⟩) = (m ((c : Thread nD τ).loc main_arg8)) (ix2 k q) := by
  have h : W9 m ρ c (Proc.devRef .tc main_v61)
      = pad S32x128 ![0, 0] ![0, 120] ![0, 0] (m ((c : Thread nD τ).loc main_arg8)) (sitofp (F := Ideal) .f32 (constantI S_ 32 0#32))
          pads_S32x8_S32x128_000_01200 h_S_ := by
    dsimp only [W9, W8, W7, hostOps2, hostOps2_1, hostOps2_2]
    read_results
    rw [W6_arg8]
  show W9 m ρ c (Proc.devRef .tc main_v61) (ix2 k ⟨q.val, by omega⟩) = _
  rw [h]
  exact pad_apply_of_inside _ _ _ _ _ _ _ _ (ix2 k q) (fun a => by
    match a with
    | ⟨0, _⟩ => show k.val = 0 + k.val * (0 + 1); omega
    | ⟨1, _⟩ => show q.val = 0 + q.val * (0 + 1); omega)

/-- After the third region, the first eight columns of its output are the reference's result. -/
theorem W10_out (c : Dev nD) (r : Fin 100000) (q : Fin 8) :
    W10 m ρ c (Proc.devRef .tc main_v64) (ix2 r ⟨q.val, by omega⟩)
      = Cert.ReferenceIdeal.Read.val_main_v110 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r q) := by
  rw [W10_arr m ρ c 5]
  rw [Region2.final (V9 m ρ) c (m ((c : Thread nD τ).loc main_arg5)) (m ((c : Thread nD τ).loc main_arg7)) (m ((c : Thread nD τ).loc main_arg8)) (W9_b2 m ρ c) (W9_bg m ρ c) (W9_leaf m ρ c) r q]
  rw [show V9 m ρ c main_v60 = _ from W9_agg m ρ c, show V9 m ρ c main_arg6 = _ from W9_arg6 m ρ c]
  exact (congrFun (Region2.ref_tree _ _ _ _ _ _ _ _ _) (ix2 r q)).symm

/-- The result buffer after the last operation holds the reference's result. -/
theorem W11_out (c : Dev nD) :
    W11 m ρ c (Proc.devRef .tc main_v65)
      = Cert.ReferenceIdeal.Read.val_main_v110 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h : W11 m ρ c (Proc.devRef .tc main_v65)
      = extractStridedSlice S100000x8 ![0, 0] (W10 m ρ c (Proc.devRef .tc main_v64)) slices_S100000x128_S100000x8_0_0 := by
    dsimp only [W11, hostOps3]
    read_results
  rw [h]
  funext i
  obtain ⟨r, q, rfl⟩ : ∃ (r : Fin 100000) (q : Fin 8), i = ix2 r q := ⟨i 0, i 1, eq_ix2 i⟩
  rw [extractStridedSlice_apply ![0, 0] _ slices_S100000x128_S100000x8_0_0 (ix2 r q) (ix2 r ⟨q.val, by omega⟩) (fun a => by
    match a with
    | ⟨0, _⟩ => show r.val = 0 + r.val; omega
    | ⟨1, _⟩ => show q.val = 0 + q.val; omega)]
  exact W10_out m ρ c r q

end Cert.KernelIdeal.Host
-- ==== Proof.Claims.lean ====
/-
  The five claims.

  The three frames: the kernel program's and its idealization's are the generated frame certificates; the reference's
  is its run with the result dropped.  The idealization rewrote no operation, so there is nothing to preserve.

  The value claim.  Both programs compute, from the edge list, the symmetric GCN normalisation, and then twice
  "dense layer, then normalised aggregation over the messages", and then the soft decision tree's gates and leaves.
  The kernel program does the dense layers in three pipelined regions, 5000 rows at a time, and the rest on the host; the
  reference does everything on the host.  The run of the kernel program ends with its result buffer at the fold of its
  segments' effects from the launch memory; read back segment by segment, that fold is the reference's composed term of
  the arguments: the degree counted in words equals the degree summed in floats because 3300000 messages cannot
  overflow a 32-bit word; each region's blocks tile its output, and a block's entry is the same sum of products as the
  host's product has there; the sigmoid is one function spelled two ways; the zero columns padded onto the leaf weights
  are cut away again by the last slice.  No algebraic law beyond 0 + x = x is used, so nothing is asked of the inputs.
-/
import proofs.«406410_j20169166422307_4_alg».proof.Defs
import proofs.«406410_j20169166422307_4_alg».proof.Proof.Gen.Kernel
import proofs.«406410_j20169166422307_4_alg».proof.Proof.Gen.Kernel.Frame
import proofs.«406410_j20169166422307_4_alg».proof.Proof.Gen.KernelIdeal
import proofs.«406410_j20169166422307_4_alg».proof.Proof.Gen.KernelIdeal.Frame
import proofs.«406410_j20169166422307_4_alg».proof.Proof.Gen.ReferenceIdeal
import proofs.«406410_j20169166422307_4_alg».proof.Proof.Gen.Pre_finite_inputs
import proofs.«406410_j20169166422307_4_alg».proof.Proof.KernelRun
import proofs.«406410_j20169166422307_4_alg».proof.Proof.HostC
import proofs.«406410_j20169166422307_4_alg».proof.Proof.RefRead

set_option maxRecDepth 16384

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's composed term of the (agreeing) arguments. -/
theorem algebraic : Cert.algebraic_KernelIdeal_ReferenceIdeal := by
  intro m ρ m' ρ' _ hagree
  refine ⟨fun c => Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Host.W11_out m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.ReferenceIdeal.Read.val_main_v110_eq, h0, h1, h2, h3, h4, h5, h6, h7, h8]

end Cert.Proof.Claims
-- ==== Proof.lean ====
/- The proof of the certificate's claim: the three frames, the (empty) preservation claim and the equivalence of the
   idealized kernel program and the idealized reference over the extended reals, each proved in Proof/Claims.lean,
   assembled here behind the witnesses of the programs' stated facts. -/
import proofs.«406410_j20169166422307_4_alg».proof.Defs
import proofs.«406410_j20169166422307_4_alg».proof.Proof.Gen.Kernel
import proofs.«406410_j20169166422307_4_alg».proof.Proof.Gen.Kernel.Skeleton
import proofs.«406410_j20169166422307_4_alg».proof.Proof.Gen.Kernel.Launch
import proofs.«406410_j20169166422307_4_alg».proof.Proof.Gen.Kernel.Points
import proofs.«406410_j20169166422307_4_alg».proof.Proof.Gen.Kernel.Frame
import proofs.«406410_j20169166422307_4_alg».proof.Proof.Gen.KernelIdeal
import proofs.«406410_j20169166422307_4_alg».proof.Proof.Gen.KernelIdeal.Skeleton
import proofs.«406410_j20169166422307_4_alg».proof.Proof.Gen.KernelIdeal.Launch
import proofs.«406410_j20169166422307_4_alg».proof.Proof.Gen.KernelIdeal.Points
import proofs.«406410_j20169166422307_4_alg».proof.Proof.Gen.KernelIdeal.Frame
import proofs.«406410_j20169166422307_4_alg».proof.Proof.Gen.ReferenceIdeal
import proofs.«406410_j20169166422307_4_alg».proof.Proof.Gen.Pre_finite_inputs
import proofs.«406410_j20169166422307_4_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
